-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096 : Shape := ⟨2, ![8, 4096]⟩
abbrev S11008x4096 : Shape := ⟨2, ![11008, 4096]⟩
abbrev S11008x32 : Shape := ⟨2, ![11008, 32]⟩
abbrev S_ : Shape := ⟨0, ![]⟩

class Facts : Prop where
  bcast_S_S8x4096 : S_.BroadcastsInDim S8x4096 (![] : Fin 0 → Fin S8x4096.rank)
  reducesTo_S8x4096_S_d0_1 : S8x4096.ReducesTo [0, 1] S_
  h_S_ : 0 < S_.numel
  bcast_S_S11008x32 : S_.BroadcastsInDim S11008x32 (![] : Fin 0 → Fin S11008x32.rank)
  reducesTo_S11008x32_S_d0_1 : S11008x32.ReducesTo [0, 1] S_

variable [Facts]

def fn {F : FTy → Type} [FloatOps F] (main_arg0 : FVec F S8x4096 .f32) (main_arg1 : IVec S11008x4096 32) (main_arg2 : IVec S11008x32 32) (main_arg3 : FVec F S11008x32 .f32) : IVec S_ 1 :=
  let main_v0 : FVec F S8x4096 .f32 := Host.absf main_arg0
  let main_cst : FVec F S_ .f32 := constant S_ .f32 0x7F800000#32
  let main_v1 : FVec F S8x4096 .f32 := broadcastInDim S8x4096 ![] bcast_S_S8x4096 main_cst
  let main_v2 : IVec S8x4096 1 := cmpf .olt main_v0 main_v1
  let main_c : IVec S_ 1 := constantI S_ 1 1#1
  let main_v3 : IVec S_ 1 := (fun x v => Host.reduce IntOp.andi x v reducesTo_S8x4096_S_d0_1 h_S_) main_v2 main_c
  let main_v4 : FVec F S11008x32 .f32 := Host.absf main_arg3
  let main_cst_0 : FVec F S_ .f32 := constant S_ .f32 0x7F800000#32
  let main_v5 : FVec F S11008x32 .f32 := broadcastInDim S11008x32 ![] bcast_S_S11008x32 main_cst_0
  let main_v6 : IVec S11008x32 1 := cmpf .olt main_v4 main_v5
  let main_c_1 : IVec S_ 1 := constantI S_ 1 1#1
  let main_v7 : IVec S_ 1 := (fun x v => Host.reduce IntOp.andi x v reducesTo_S11008x32_S_d0_1 h_S_) main_v6 main_c_1
  let main_v8 : IVec S_ 1 := andi main_v3 main_v7
  main_v8
-- ==== Kernel.lean ====
abbrev S8x4096 : Shape := ⟨2, ![8, 4096]⟩
abbrev S11008x4096 : Shape := ⟨2, ![11008, 4096]⟩
abbrev S11008x32 : Shape := ⟨2, ![11008, 32]⟩
abbrev S8x11008 : Shape := ⟨2, ![8, 11008]⟩
abbrev S256x4096 : Shape := ⟨2, ![256, 4096]⟩
abbrev S256x32 : Shape := ⟨2, ![256, 32]⟩
abbrev S8x256 : Shape := ⟨2, ![8, 256]⟩
abbrev S256x32x1 : Shape := ⟨3, ![256, 32, 1]⟩
abbrev S256x32x128 : Shape := ⟨3, ![256, 32, 128]⟩
abbrev S4096x256 : Shape := ⟨2, ![4096, 256]⟩

abbrev nBuf : Space → Nat
  | .hbm => 5
  | .vmem => 9
  | .smem => 0
  | _ => 0

abbrev bufTy : (tb : Table) → Fin (tcTables nBuf tb) → BufTy
  | .hbm, ⟨0, _⟩ => ⟨S8x4096, .f32⟩
  | .hbm, ⟨1, _⟩ => ⟨S11008x4096, .i32⟩
  | .hbm, ⟨2, _⟩ => ⟨S11008x32, .i32⟩
  | .hbm, ⟨3, _⟩ => ⟨S11008x32, .f32⟩
  | .hbm, ⟨4, _⟩ => ⟨S8x11008, .f32⟩
  | .local _ .vmem, ⟨0, _⟩ => ⟨S8x4096, .f32⟩
  | .local _ .vmem, ⟨1, _⟩ => ⟨S256x4096, .i32⟩
  | .local _ .vmem, ⟨2, _⟩ => ⟨S256x4096, .i32⟩
  | .local _ .vmem, ⟨3, _⟩ => ⟨S256x32, .i32⟩
  | .local _ .vmem, ⟨4, _⟩ => ⟨S256x32, .i32⟩
  | .local _ .vmem, ⟨5, _⟩ => ⟨S256x32, .f32⟩
  | .local _ .vmem, ⟨6, _⟩ => ⟨S256x32, .f32⟩
  | .local _ .vmem, ⟨7, _⟩ => ⟨S8x256, .f32⟩
  | .local _ .vmem, ⟨8, _⟩ => ⟨S8x256, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S256x4096_S256x4096_0_0 : ∀ a, (![0, 0] : Fin 2 → Nat) a + S256x4096.size a ≤ S256x4096.size a
  h_S256x4096 : 0 < S256x4096.numel
  inb_S256x32_S256x32_0_0 : ∀ a, (![0, 0] : Fin 2 → Nat) a + S256x32.size a ≤ S256x32.size a
  h_S256x32 : 0 < S256x32.numel
  shapeCasts_S256x32_S256x32x1 : S256x32.ShapeCasts S256x32x1
  broadcasts_S256x32x1_S256x32x128 : S256x32x1.Broadcasts S256x32x128
  shapeCasts_S256x32x128_S256x4096 : S256x32x128.ShapeCasts S256x4096
  bitsLt_bf16_f32 : FTy.bits .bf16 < FTy.bits .f32
  inb_S8x4096_S8x4096_0_0 : ∀ a, (![0, 0] : Fin 2 → Nat) a + S8x4096.size a ≤ S8x4096.size a
  h_S8x4096 : 0 < S8x4096.numel
  transposes_S256x4096_p1_0_S4096x256 : S256x4096.Transposes [1, 0] S4096x256
  inb_S8x256_S8x256_0_0 : ∀ a, (![0, 0] : Fin 2 → Nat) a + S8x256.size a ≤ S8x256.size a
  h_S8x256 : 0 < S8x256.numel
  dot_S8x4096_S4096x256_S8x256_1_0_0_1_n_n_wf : DotDims.WF S8x4096 S4096x256 S8x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x4096.size a ≤ S8x4096.size a
  hwx0_0 : ∀ i : grid0.Coords, EltTy.bits .f32 = 32 ∨ (Rect.block (s := S8x4096) S8x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S11008x32.size a
  hwx0_2 : ∀ i : grid0.Coords, EltTy.bits .i32 = 32 ∨ (Rect.block (s := S11008x32) S256x32.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x32.size a ≤ S11008x32.size a
  hwx0_3 : ∀ i : grid0.Coords, EltTy.bits .f32 = 32 ∨ (Rect.block (s := S11008x32) S256x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256.size a ≤ S8x11008.size a
  hwx0_4 : ∀ i : grid0.Coords, EltTy.bits .f32 = 32 ∨ (Rect.block (s := S8x11008) S8x256.size (cc0_transform_4 i) (hinb0_4 i)).WholeWords (EltTy.packing .f32)

variable [Facts₀]

def dot_S8x4096_S4096x256_S8x256_1_0_0_1_n_n : DotDims S8x4096 S4096x256 S8x256 where
  lhsContracting := [1]
  rhsContracting := [0]
  lhsNonContracting := [0]
  rhsNonContracting := [1]
  lhsBatch := []
  rhsBatch := []
  wf := dot_S8x4096_S4096x256_S8x256_1_0_0_1_n_n_wf

abbrev win0_0 : Pipeline.Window sig grid0 :=
  Pipeline.Window.ofSpec (Memref.whole main_arg0) S8x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S8x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096 : Shape := ⟨2, ![8, 4096]⟩
abbrev S11008x4096 : Shape := ⟨2, ![11008, 4096]⟩
abbrev S11008x32 : Shape := ⟨2, ![11008, 32]⟩
abbrev S11008x32x128 : Shape := ⟨3, ![11008, 32, 128]⟩
abbrev S11008x32x1 : Shape := ⟨3, ![11008, 32, 1]⟩
abbrev S8x11008 : Shape := ⟨2, ![8, 11008]⟩

abbrev nBuf : Space → Nat
  | .hbm => 15
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S11008x4096, .i32⟩
  | .hbm, ⟨2, _⟩ => ⟨S11008x32, .i32⟩
  | .hbm, ⟨3, _⟩ => ⟨S11008x32, .f32⟩
  | .hbm, ⟨4, _⟩ => ⟨S11008x32x128, .i32⟩
  | .hbm, ⟨5, _⟩ => ⟨S11008x32x128, .f32⟩
  | .hbm, ⟨6, _⟩ => ⟨S11008x32x1, .i32⟩
  | .hbm, ⟨7, _⟩ => ⟨S11008x32x1, .f32⟩
  | .hbm, ⟨8, _⟩ => ⟨S11008x32x128, .f32⟩
  | .hbm, ⟨9, _⟩ => ⟨S11008x32x128, .f32⟩
  | .hbm, ⟨10, _⟩ => ⟨S11008x32x1, .f32⟩
  | .hbm, ⟨11, _⟩ => ⟨S11008x32x128, .f32⟩
  | .hbm, ⟨12, _⟩ => ⟨S11008x32x128, .f32⟩
  | .hbm, ⟨13, _⟩ => ⟨S11008x4096, .f32⟩
  | .hbm, ⟨14, _⟩ => ⟨S8x11008, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  shapeCasts_S11008x4096_S11008x32x128 : S11008x4096.ShapeCasts S11008x32x128
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  dot_S8x4096_S11008x4096_S8x11008_1_1_0_0_n_n_wf : DotDims.WF S8x4096 S11008x4096 S8x11008 [1] [1] [0] [0] [] []

variable [Facts₀]

def dot_S8x4096_S11008x4096_S8x11008_1_1_0_0_n_n : DotDims S8x4096 S11008x4096 S8x11008 where
  lhsContracting := [1]
  rhsContracting := [1]
  lhsNonContracting := [0]
  rhsNonContracting := [0]
  lhsBatch := []
  rhsBatch := []
  wf := dot_S8x4096_S11008x4096_S8x11008_1_1_0_0_n_n_wf

class Facts : Prop extends Facts₀ where

variable [Facts]
-- ==== Proof.LibColumnLayout.lean ====
/-
  A column of row sums, laid along the rows and along the columns of a matrix, read at an index.

  A kernel that sums the rows of an `[a, b]` matrix with `keepdims` holds the sums as a column `[a, 1]`; it then
  either broadcasts that column over `b` columns, or transposes it into a row `[1, a]` and broadcasts the row over
  many rows. The lemmas here read each of those steps at an index given by its coordinates:

  * `multiReduction_add_rows_apply` — the sum over the second axis of `[a, b]`, at row `p`, is `∑ₖ src (p, k)`;
  * `shapeCast_a_a1_apply` — a vector `[a]` cast to the column `[a, 1]` reads, at `(i, u)`, the vector at `i`;
  * `broadcastTo_a1_ab_apply` — a column `[a, 1]` broadcast to `[a, b]` reads, at `(i, j)`, the column at `(i, 0)`;
  * `column_over_columns_apply` / `column_as_row_over_rows_apply` — the two compositions a kernel prints: the
    vector `w` as a column over all columns is `w i` at `(i, j)`, and as a transposed row over all rows is `w j`.

  All are generic in the extents and in the element type; none uses anything of the arithmetic.
-/
import Idealize.ShloMosaic.Lib.Pipeline.Value
import Idealize.ShloMosaic.Lib.ValueIdx
import Idealize.ShloMosaic.Lib.ValueLayout
import Idealize.ShloMosaic.PureOps.Ideal.Laws

namespace Cert.ColumnLayout

open Idealize.ShloMosaic Idealize.ShloMosaic.ValueIdx

variable {α : Type}

/-- The sum over the second axis of an `[a, b]` matrix, read at row `p` at the ideal values: the sum over the `b`
    entries of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A vector `[a]` cast to the column `[a, 1]` reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `w` set as a column and broadcast over `b` columns: at `(i, j)` it is `w i`. -/
theorem column_over_columns_apply {a b : ℕ} (w : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ w hc) hb (ix2 i j) = w (ix1 i) :=
  (broadcastTo_a1_ab_apply _ hb i j).trans (shapeCast_a_a1_apply w hc i 0)

/-- A vector `w` set as a column, transposed into a row, and broadcast over `a` rows: at `(i, j)` it is `w j`. -/
theorem column_as_row_over_rows_apply {a b : ℕ} (w : (⟨1, ![b]⟩ : Shape).Idx → α)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] (shapeCast ⟨2, ![b, 1]⟩ w hc) ht) hb (ix2 i j) = w (ix1 j) :=
  (broadcastTo_1b_ab_apply _ hb i j).trans
    ((transpose_ix2_apply _ ht (0 : Fin 1) j).trans (shapeCast_a_a1_apply w hc j 0))

end Cert.ColumnLayout
-- ==== Proof.LibDenseLayer.lean ====
/-
  The dense half of a graph-convolution layer, as plain functions of matrices of extended reals.

  A layer multiplies an `[a, K]` matrix `x` by a `[K, N]` matrix `w` and then either clamps every entry at zero from
  below (`reluLayer`) or normalises every row by the softmax (`softmaxLayer`): the row's entries minus the row's
  maximum, exponentiated, divided by the row's sum of those exponentials. Everything is stated entry by entry, at
  the row `r` and the column `q`, so that it reads the same on a block of rows and on the whole matrix: entry
  `(r, q)` of either layer depends on `x` only through row `r` (`prodRow_congr`).

  Then each operation a vector program or a host program spells these layers with, read at an index at the ideal
  values: a matrix product into a zero accumulator and a `dot_general` as `prodRow` (for dimension numbers that
  contract the second axis of the left operand with the first of the right: `PlainDot`), a row maximum taken by a
  vector reduction or by a host reduction as the fold of `max` over the row, a host row sum as the initial value plus
  the sum over the row; and a vector program's whole row softmax (`vector_softmax_apply`), its column of row maxima and
  its column of row sums laid over the columns by a shape cast and a broadcast.

  All are generic in the extents.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«153970_j25031069401195_1_alg».proof.Proof.LibColumnLayout

noncomputable section

namespace Cert.DenseLayer

open Idealize.ShloMosaic Idealize.ShloMosaic.ValueIdx

/-- A `[p, q]` matrix of extended reals, indexed as the arrays are. -/
abbrev Mat (p q : ℕ) : Type := (⟨2, ![p, q]⟩ : Shape).Idx → EReal

variable {a K N : ℕ}

/-! ## The layers -/

/-- Row `r` of the product `x · w`: in column `q` the sum over `k` of `x (r, k) · w (k, q)`. -/
def prodRow (x : Mat a K) (w : Mat K N) (r : Fin a) : Fin N → EReal :=
  fun q => ∑ k : Fin K, x (ix2 r k) * w (ix2 k q)

/-- A row of the product depends on the left matrix only through that row: two left matrices, of any heights,
    that agree along a row of each give the same row of products. -/
theorem prodRow_congr {a' : ℕ} (x : Mat a K) (x' : Mat a' K) (w : Mat K N) (r : Fin a) (r' : Fin a')
    (h : ∀ k, x (ix2 r k) = x' (ix2 r' k)) : prodRow x w r = prodRow x' w r' :=
  funext fun q => Finset.sum_congr rfl fun k _ => by rw [h k]

/-- The product clamped at zero from below, entry by entry (the zero written as the word a program writes). -/
def reluLayer (x : Mat a K) (w : Mat K N) : Mat a N :=
  fun i => max (prodRow x w (i 0) (i 1)) (Ideal.ofBits .f32 0x00000000#32)

/-- The maximum of a row, taken from `-∞` (the word a program writes) and once more against `-∞`. -/
def rowTop (z : Fin N → EReal) : EReal :=
  max (Ideal.ofBits .f32 0xFF800000#32) (Finset.univ.fold max (Ideal.ofBits .f32 0xFF800000#32) z)

/-- The softmax of a row at column `q`: `exp (z q - top)` over the sum of `exp (z j - top)` along the row. -/
def softmaxRow (z : Fin N → EReal) (q : Fin N) : EReal :=
  Ideal.div (Ideal.exp (z q - rowTop z)) (∑ j : Fin N, Ideal.exp (z j - rowTop z))

/-- The product with every row normalised by the softmax. -/
def softmaxLayer (x : Mat a K) (w : Mat K N) : Mat a N :=
  fun i => softmaxRow (prodRow x w (i 0)) (i 1)

theorem reluLayer_apply (x : Mat a K) (w : Mat K N) (r : Fin a) (q : Fin N) :
    reluLayer x w (ix2 r q) = max (prodRow x w r q) (Ideal.ofBits .f32 0x00000000#32) := rfl

theorem softmaxLayer_apply (x : Mat a K) (w : Mat K N) (r : Fin a) (q : Fin N) :
    softmaxLayer x w (ix2 r q) = softmaxRow (prodRow x w r) q := rfl

/-! ## A matrix product read at an index -/

/-- Dimension numbers of a plain product `[a, K] × [K, N] → [a, N]`: one contracted axis of extent `K`, the left
    operand read at `(row, k)` and the right at `(k, column)`. -/
structure PlainDot (d : DotDims ⟨2, ![a, K]⟩ ⟨2, ![K, N]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (q ⟨0, by omega⟩).val
  rhs1 : ∀ (i : (⟨2, ![a, N]⟩ : Shape).Idx) (q : d.contr.Idx), (d.rhsIdx i q 1).val = (i 1).val

/-- The contraction's sum over its own index type is the sum over `k : Fin K` of the row times the column. -/
theorem sum_contr_eq_prodRow {d : DotDims ⟨2, ![a, K]⟩ ⟨2, ![K, N]⟩ ⟨2, ![a, N]⟩} (hd : PlainDot d)
    (x : Mat a K) (w : Mat K N) (i : (⟨2, ![a, N]⟩ : Shape).Idx) :
    ∑ k : d.contr.Idx, x (d.lhsIdx i k) * w (d.rhsIdx i k) = prodRow x w (i 0) (i 1) := by
  unfold prodRow
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 k (i 1) := funext fun ax => Fin.ext (by
    match ax with
    | ⟨0, _⟩ => exact (hd.rhs0 _ _).trans hk
    | ⟨1, _⟩ => exact hd.rhs1 _ _)
  rw [el, er]
  rfl

/-- A vector program's matrix product into the zero accumulator, at the ideal values, is `prodRow` entry by entry,
    whatever the operands' float formats. -/
theorem matmul_zero_apply {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂)
    (i : (⟨2, ![a, N]⟩ : Shape).Idx) :
    FloatOps.matmul d prec x w (constant ⟨2, ![a, N]⟩ .f32 0x00000000#32) i = prodRow x w (i 0) (i 1) :=
  (Ideal.matmul_constant_zero_apply d prec x w i).trans (sum_contr_eq_prodRow hd x w i)

/-- A host program's `dot_general`, at the ideal values, is `prodRow` entry by entry. -/
theorem dotGeneral_apply {φ₁ φ₂ : FTy} {d : DotDims ⟨2, ![a, K]⟩ ⟨2, ![K, N]⟩ ⟨2, ![a, N]⟩} (hd : PlainDot d)
    (prec : Option ContractPrecision) (sched : HostSchedule) (x : FVec Ideal ⟨2, ![a, K]⟩ φ₁)
    (w : FVec Ideal ⟨2, ![K, N]⟩ φ₂) (i : (⟨2, ![a, N]⟩ : Shape).Idx) :
    FloatOps.dotGeneral d prec sched x w i = prodRow x w (i 0) (i 1) :=
  (Ideal.dotGeneral_apply d prec sched x w i).trans (sum_contr_eq_prodRow hd x w i)

/-! ## A row's maximum and a row's sum read at an index -/

/-- Inserting the coordinate `k` on the second axis over the row index `p` gives `(p, k)`. -/
theorem lift_rows {b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

/-- A vector program's maximum over the second axis of `[a, b]`, at row `p` at the ideal values: the fold of `max`
    from the accumulator's value over the row's `b` entries. -/
theorem multiReduction_max_rows_apply {b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f : Fin b → EReal => (Finset.univ : Finset (Fin b)).fold max (Ideal.ofBits φ acc) f)
      (funext fun k => congrArg src (lift_rows h p k)))

/-- A host program's maximum over the second axis of `[a, b]`, at row `p` at the ideal values: the fold of `max`
    from the initial value over the row's `b` entries. -/
theorem hostReduce_max_rows_apply {b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f : Fin b → EReal => (Finset.univ : Finset (Fin b)).fold max (init (Shape.Idx.first hu)) f)
      (funext fun k => congrArg x (lift_rows h p k)))

/-! ## A vector program's row softmax read at an index -/

section VectorSoftmax

variable {b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

/-- The row maxima of `z` as a vector program takes them — the reduction from `-∞`, once more against a splat of
    `-∞` — set as a column and laid over the `b` columns. -/
def vecTop : FVec Ideal ⟨2, ![a, b]⟩ .f32 :=
  broadcastTo ⟨2, ![a, b]⟩
    (shapeCast ⟨2, ![a, 1]⟩
      (maximumf (broadcast ⟨1, ![a]⟩ (Scalar.ofBits (F := Ideal) .f32 0xFF800000#32))
        (multiReduction .maximumf [1] ⟨1, ![a]⟩ z 0xFF800000#32 hr hφ hmax)) hc) hb

/-- At `(p, q)` it is the maximum of row `p`, whatever the column. -/
theorem vecTop_apply (p : Fin a) (q : Fin b) :
    vecTop z hr hc hb hφ hmax (ix2 p q) = rowTop (fun k => z (ix2 p k)) :=
  (Cert.ColumnLayout.column_over_columns_apply _ hc hb p q).trans
    (congrArg (max (Ideal.ofBits .f32 0xFF800000#32)) (multiReduction_max_rows_apply z _ hr hφ hmax p))

/-- The whole row softmax of a vector program — the entries minus the laid-out row maxima, exponentiated, divided by
    their row sums laid out the same way — is `softmaxRow` of the row, entry by entry. -/
theorem vector_softmax_apply (p : Fin a) (q : Fin b) :
    divf (exp (subf z (vecTop z hr hc hb hφ hmax)))
        (broadcastTo ⟨2, ![a, b]⟩
          (shapeCast ⟨2, ![a, 1]⟩
            (multiReduction .add [1] ⟨1, ![a]⟩ (exp (subf z (vecTop z hr hc hb hφ hmax))) 0x00000000#32 hr hφ hadd) hc) hb)
        (ix2 p q)
      = softmaxRow (fun k => z (ix2 p k)) q := by
  have hE : ∀ k : Fin b, exp (subf z (vecTop z hr hc hb hφ hmax)) (ix2 p k)
      = Ideal.exp (z (ix2 p k) - rowTop (fun k => z (ix2 p k))) := fun k => by
    show Ideal.exp (z (ix2 p k) - vecTop z hr hc hb hφ hmax (ix2 p k)) = _
    rw [vecTop_apply]
  show Ideal.div (exp (subf z (vecTop z hr hc hb hφ hmax)) (ix2 p q)) _ = _
  rw [hE q, Cert.ColumnLayout.column_over_columns_apply, Cert.ColumnLayout.multiReduction_add_rows_apply]
  unfold softmaxRow
  exact congrArg (Ideal.div _) (Finset.sum_congr rfl fun k _ => hE k)

end VectorSoftmax

end Cert.DenseLayer

end
-- ==== Proof.LibRowsDot.lean ====
/-
  Products of a matrix with the ROWS of another: `x · wᵀ`, entry by entry, and the operations that spell it.

  For `x : [a, K]` and `w : [N, K]`, row `r` of `x · wᵀ` has in column `q` the sum over `k` of
  `x (r, k) · w (q, k)` (`prodRowT`): the contraction runs along the second axis of both factors, as in
  `einsum('bi,oi->bo')` or a linear layer that stores its weight as `[out, in]`.

  * `prodRow_transposed` — the plain product `prodRow` (row times column) with a matrix that is `w` transposed
    is `prodRowT` with `w`: how a program that is handed `wᵀ` and contracts its first axis meets one that
    contracts the second axis of `w` itself;
  * `RowsDot` — what it means for a contraction's dimension numbers to be of this kind (one contracted axis, the
    left operand read at `(row, k)`, the right at `(column, k)`), and `sum_contr_eq_prodRowT`: such a
    contraction's sum over its own index type is `prodRowT`;
  * `dotGeneral_rows_apply` — a host program's `dot_general` of this kind, at the ideal values, is `prodRowT`
    entry by entry, whatever the operands' float formats.

  All are generic in the extents.
-/
import Idealize.ShloMosaic.Lib.Pipeline.Value
import Idealize.ShloMosaic.Lib.ValueIdx
import Idealize.ShloMosaic.PureOps.Ideal.Laws
import proofs.«153970_j25031069401195_1_alg».proof.Proof.LibDenseLayer

noncomputable section

namespace Cert.DenseRows

open Idealize.ShloMosaic Idealize.ShloMosaic.ValueIdx
open Cert.DenseLayer (Mat prodRow)

variable {a K N : ℕ}

/-- Row `r` of `x · wᵀ`: in column `q` the sum over `k` of `x (r, k) · w (q, k)`. -/
def prodRowT (x : Mat a K) (w : Mat N K) (r : Fin a) : Fin N → EReal :=
  fun q => ∑ k : Fin K, x (ix2 r k) * w (ix2 q k)

/-- An entry of the product depends on the left matrix only through its row, and on the right matrix only through
    the row of the column asked for: matrices of any heights that agree along those rows give the same entry. -/
theorem prodRowT_congr {a' N' : ℕ} (x : Mat a K) (x' : Mat a' K) (w : Mat N K) (w' : Mat N' K) (r : Fin a) (r' : Fin a')
    (q : Fin N) (q' : Fin N') (hx : ∀ k, x (ix2 r k) = x' (ix2 r' k)) (hw : ∀ k, w (ix2 q k) = w' (ix2 q' k)) :
    prodRowT x w r q = prodRowT x' w' r' q' :=
  Finset.sum_congr rfl fun k _ => by rw [hx k, hw k]

/-- The plain product with a matrix that is `w` transposed is the product with the rows of `w`. -/
theorem prodRow_transposed (x : Mat a K) (wT : Mat K N) (w : Mat N K) (h : ∀ k q, wT (ix2 k q) = w (ix2 q k))
    (r : Fin a) (q : Fin N) : prodRow x wT r q = prodRowT x w r q :=
  Finset.sum_congr rfl fun k _ => by rw [h k q]

/-- Dimension numbers of a product `[a, K] × [N, K] → [a, N]` along the second axis of both factors: one
    contracted axis of extent `K`, the left operand read at `(row, k)` and the right at `(column, k)`. -/
structure RowsDot (d : DotDims ⟨2, ![a, K]⟩ ⟨2, ![N, K]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (i 1).val
  rhs1 : ∀ (i : (⟨2, ![a, N]⟩ : Shape).Idx) (q : d.contr.Idx), (d.rhsIdx i q 1).val = (q ⟨0, by omega⟩).val

/-- Such a contraction's sum over its own index type is `prodRowT`. -/
theorem sum_contr_eq_prodRowT {d : DotDims ⟨2, ![a, K]⟩ ⟨2, ![N, K]⟩ ⟨2, ![a, N]⟩} (hd : RowsDot d)
    (x : Mat a K) (w : Mat N K) (i : (⟨2, ![a, N]⟩ : Shape).Idx) :
    ∑ k : d.contr.Idx, x (d.lhsIdx i k) * w (d.rhsIdx i k) = prodRowT x w (i 0) (i 1) := by
  unfold prodRowT
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 (i 1) k := funext fun ax => Fin.ext (by
    match ax with
    | ⟨0, _⟩ => exact hd.rhs0 _ _
    | ⟨1, _⟩ => exact (hd.rhs1 _ _).trans hk)
  rw [el, er]
  rfl

/-- A host program's `dot_general` along the second axis of both operands, at the ideal values, is `prodRowT`
    entry by entry. -/
theorem dotGeneral_rows_apply {φ₁ φ₂ : FTy} {d : DotDims ⟨2, ![a, K]⟩ ⟨2, ![N, K]⟩ ⟨2, ![a, N]⟩} (hd : RowsDot d)
    (prec : Option ContractPrecision) (sched : HostSchedule) (x : FVec Ideal ⟨2, ![a, K]⟩ φ₁)
    (w : FVec Ideal ⟨2, ![N, K]⟩ φ₂) (i : (⟨2, ![a, N]⟩ : Shape).Idx) :
    FloatOps.dotGeneral d prec sched x w i = prodRowT x w (i 0) (i 1) :=
  (Ideal.dotGeneral_apply d prec sched x w i).trans (sum_contr_eq_prodRowT hd x w i)

end Cert.DenseRows

end
-- ==== Proof.LibGroupDequant.lean ====
/-
  A linear layer whose weight is stored quantised by groups of columns, as plain functions of matrices.

  The weight `[N, K]` is kept as integer words `q`. The `K` columns fall into `G` groups by a map
  `grp : Fin K → Fin G`, and every row carries, per group, an integer zero point `z (n, g)` and a scale `s (n, g)`.
  The weight the layer multiplies by is

      w (n, k) = (q (n, k) − z (n, grp k)) · s (n, grp k),

  the integers read as reals (`dequant`), and the layer is `x · wᵀ` (`groupLinear`): its entry `(r, n)` is the sum
  over `k` of `x (r, k) · w (n, k)`.

  Entry `(r, n)` depends on `x` only through its row `r` and on `q`, `z` and `s` only through their row `n`
  (`groupLinear_congr`): the same statement reads a block of rows of the weight and the whole weight.

  Generic in the extents and in the grouping of the columns.
-/
import Idealize.ShloMosaic.Lib.ValueIdx
import Idealize.ShloMosaic.PureOps.Ideal.Laws
import proofs.«153970_j25031069401195_1_alg».proof.Proof.LibRowsDot

noncomputable section

namespace Cert.GroupDequant

open Idealize.ShloMosaic Idealize.ShloMosaic.ValueIdx
open Cert.DenseLayer (Mat)
open Cert.DenseRows (prodRowT prodRowT_congr)

/-- A `[p, q]` matrix of 32-bit integer words, indexed as the arrays are. -/
abbrev IMat (p q : ℕ) : Type := (⟨2, ![p, q]⟩ : Shape).Idx → BitVec 32

variable {a N K G : ℕ}

/-- The weight a group-quantised layer multiplies by: at `(n, k)` the stored integer minus its group's zero point,
    both read as reals, times its group's scale. -/
def dequant (grp : Fin K → Fin G) (q : IMat N K) (z : IMat N G) (s : Mat N G) : Mat N K :=
  fun i => ((FloatOps.sitofp (F := Ideal) .f32 (q i) : EReal)
      - (FloatOps.sitofp (F := Ideal) .f32 (z (ix2 (i 0) (grp (i 1)))) : EReal)) * s (ix2 (i 0) (grp (i 1)))

theorem dequant_apply (grp : Fin K → Fin G) (q : IMat N K) (z : IMat N G) (s : Mat N G) (n : Fin N) (k : Fin K) :
    dequant grp q z s (ix2 n k)
      = ((FloatOps.sitofp (F := Ideal) .f32 (q (ix2 n k)) : EReal)
          - (FloatOps.sitofp (F := Ideal) .f32 (z (ix2 n (grp k))) : EReal)) * s (ix2 n (grp k)) := rfl

/-- The layer: `x` times the transpose of the dequantised weight, entry by entry. -/
def groupLinear (grp : Fin K → Fin G) (x : Mat a K) (q : IMat N K) (z : IMat N G) (s : Mat N G) : Mat a N :=
  fun i => prodRowT x (dequant grp q z s) (i 0) (i 1)

theorem groupLinear_apply (grp : Fin K → Fin G) (x : Mat a K) (q : IMat N K) (z : IMat N G) (s : Mat N G)
    (r : Fin a) (n : Fin N) : groupLinear grp x q z s (ix2 r n) = prodRowT x (dequant grp q z s) r n := rfl

/-- An entry of the layer is decided by one row of `x` and one row of each of `q`, `z`, `s`: operands of any
    heights that agree along those rows give the same entry. -/
theorem groupLinear_congr {a' N' : ℕ} (grp : Fin K → Fin G) (x : Mat a K) (x' : Mat a' K)
    (q : IMat N K) (q' : IMat N' K) (z : IMat N G) (z' : IMat N' G) (s : Mat N G) (s' : Mat N' G)
    (r : Fin a) (r' : Fin a') (n : Fin N) (n' : Fin N')
    (hx : ∀ k, x (ix2 r k) = x' (ix2 r' k)) (hq : ∀ k, q (ix2 n k) = q' (ix2 n' k))
    (hz : ∀ g, z (ix2 n g) = z' (ix2 n' g)) (hs : ∀ g, s (ix2 n g) = s' (ix2 n' g)) :
    prodRowT x (dequant grp q z s) r n = prodRowT x' (dequant grp q' z' s') r' n' :=
  prodRowT_congr x x' _ _ r r' n n' hx fun k => by
    rw [dequant_apply, dequant_apply, hq k, hz (grp k), hs (grp k)]

end Cert.GroupDequant

end
-- ==== Proof.LibPlainDot.lean ====
/-
  Dimension numbers of a plain matrix product, recognised from their axis lists.

  A contraction's dimension numbers name, for each operand, which axes are batch axes, which are carried to the
  result and which are summed over. For a product `[a, K] × [K, N] → [a, N]` with no batch axis, the left operand's
  second axis summed against the right operand's first, and the two remaining axes carried in order, the left operand
  is read at `(row, k)` and the right at `(k, column)`: the record is a `PlainDot`, so that the product at an index is
  the row-times-column sum `prodRow`. The lemma is generic in the extents and takes the six axis lists as equations,
  which hold by `rfl` of any record written with those lists.
-/
import Idealize.ShloMosaic.PureOps.Dims
import proofs.«153970_j25031069401195_1_alg».proof.Proof.LibDenseLayer

noncomputable section

namespace Cert.DenseLayer

open Idealize.ShloMosaic Idealize.ShloMosaic.ValueIdx

variable {a K N : ℕ}

/-- Two positions of one index that are equal as numbers hold the same coordinate. -/
theorem coord_val_congr {s : Shape} (i : s.Idx) (p q : ℕ) (hp : p < s.rank) (hq : q < s.rank) (h : p = q) :
    (i ⟨p, hp⟩).val = (i ⟨q, hq⟩).val := by subst h; rfl

/-- Dimension numbers with no batch axis that sum the left operand's axis 1 against the right operand's axis 0 and
    carry the left operand's axis 0 and then the right operand's axis 1 are those of a plain product. -/
theorem plainDot_of_axes (d : DotDims ⟨2, ![a, K]⟩ ⟨2, ![K, N]⟩ ⟨2, ![a, N]⟩)
    (hlc : d.lhsContracting = [1]) (hrc : d.rhsContracting = [0])
    (hln : d.lhsNonContracting = [0]) (hrn : d.rhsNonContracting = [1])
    (hlb : d.lhsBatch = []) (hrb : d.rhsBatch = []) : PlainDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => d.rhsIdx_val_of_single hrc i q
  rhs1 := fun i q => by
    have hb : (1 : Fin (⟨2, ![K, N]⟩ : Shape).rank) ∉ d.rhsBatch := by rw [hrb]; exact List.not_mem_nil
    have hn : (1 : Fin (⟨2, ![K, N]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])

end Cert.DenseLayer

end
-- ==== Proof.LibRowsDims.lean ====
/-
  Products with the rows of a matrix, `x · wᵀ`, recognised from a contraction's axis lists, and a vector program's
  spelling of one.

  For a product `[a, K] × [N, K] → [a, N]` with no batch axis, the second axis of both operands summed, and the two
  first axes carried in order, the left operand is read at `(row, k)` and the right at `(column, k)`: the record is a
  `RowsDot` (`rowsDot_of_axes`, generic in the extents; the six axis lists are equations that hold by `rfl` of any
  record written with those lists). Then a vector program's matrix product of this kind into the zero accumulator,
  at the ideal values, is `prodRowT` entry by entry, whatever the operands' float formats (`matmul_zero_rows_apply`).
-/
import Idealize.ShloMosaic.PureOps.Dims
import proofs.«153970_j25031069401195_1_alg».proof.Proof.LibRowsDot
import proofs.«153970_j25031069401195_1_alg».proof.Proof.LibPlainDot

noncomputable section

namespace Cert.DenseRows

open Idealize.ShloMosaic Idealize.ShloMosaic.ValueIdx
open Cert.DenseLayer (Mat coord_val_congr)

variable {a K N : ℕ}

/-- Dimension numbers with no batch axis that sum axis 1 of both operands and carry the left operand's axis 0 and
    then the right operand's axis 0 are those of a product with the rows of the right operand. -/
theorem rowsDot_of_axes (d : DotDims ⟨2, ![a, K]⟩ ⟨2, ![N, K]⟩ ⟨2, ![a, N]⟩)
    (hlc : d.lhsContracting = [1]) (hrc : d.rhsContracting = [1])
    (hln : d.lhsNonContracting = [0]) (hrn : d.rhsNonContracting = [0])
    (hlb : d.lhsBatch = []) (hrb : d.rhsBatch = []) : RowsDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => by
    have hb : (0 : Fin (⟨2, ![N, K]⟩ : Shape).rank) ∉ d.rhsBatch := by rw [hrb]; exact List.not_mem_nil
    have hn : (0 : Fin (⟨2, ![N, K]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])
  rhs1 := fun i q => d.rhsIdx_val_of_single hrc i q

/-- A vector program's matrix product along the second axis of both operands into the zero accumulator, at the
    ideal values, is `prodRowT` entry by entry. -/
theorem matmul_zero_rows_apply {φ₁ φ₂ : FTy} {d : DotDims ⟨2, ![a, K]⟩ ⟨2, ![N, K]⟩ ⟨2, ![a, N]⟩} (hd : RowsDot d)
    (prec : Option ContractPrecision) (x : FVec Ideal ⟨2, ![a, K]⟩ φ₁) (w : FVec Ideal ⟨2, ![N, K]⟩ φ₂)
    (i : (⟨2, ![a, N]⟩ : Shape).Idx) :
    FloatOps.matmul d prec x w (constant ⟨2, ![a, N]⟩ .f32 0x00000000#32) i = prodRowT x w (i 0) (i 1) :=
  (Ideal.matmul_constant_zero_apply d prec x w i).trans (sum_contr_eq_prodRowT hd x w i)

end Cert.DenseRows

end
-- ==== Proof.GroupRepeat.lean ====
/-
  Repeating each of 32 group values over the 128 columns of its group.

  A vector program spreads a `[N, 32]` table of per-group values over `[N, 4096]` columns by viewing it as
  `[N, 32, 1]`, broadcasting the last axis to 128 and flattening the last two axes: column `k` of the result holds
  the value of group `k / 128`, because in row-major order position `(n, g, l)` of `[N, 32, 128]` is position
  `(n, 128 g + l)` of `[N, 4096]`.
-/
import Idealize.ShloMosaic.Lib.Pipeline.Value
import Idealize.ShloMosaic.Lib.ValueIdx

noncomputable section

namespace Cert.GroupRepeat

open Idealize.ShloMosaic Idealize.ShloMosaic.ValueIdx

/-- The group of a column: columns `128 g … 128 g + 127` form group `g`. -/
def grp128 (k : Fin 4096) : Fin 32 := ⟨k.val / 128, by have := k.isLt; omega⟩

theorem grp128_val (k : Fin 4096) : (grp128 k).val = k.val / 128 := rfl

variable {N : ℕ} {α : Type}

/-- The spread table at `(n, k)` is the table at `(n, k / 128)`. -/
theorem repeat_apply (v : (⟨2, ![N, 32]⟩ : Shape).Idx → α)
    (h1 : (⟨2, ![N, 32]⟩ : Shape).ShapeCasts ⟨3, ![N, 32, 1]⟩)
    (h2 : (⟨3, ![N, 32, 1]⟩ : Shape).Broadcasts ⟨3, ![N, 32, 128]⟩)
    (h3 : (⟨3, ![N, 32, 128]⟩ : Shape).ShapeCasts ⟨2, ![N, 4096]⟩) (n : Fin N) (k : Fin 4096) :
    shapeCast ⟨2, ![N, 4096]⟩ (broadcastTo ⟨3, ![N, 32, 128]⟩ (shapeCast ⟨3, ![N, 32, 1]⟩ v h1) h2) h3 (ix2 n k)
      = v (ix2 n (grp128 k)) := by
  have hk : k.val < 4096 := k.isLt
  have hn : n.val < N := n.isLt
  refine (shapeCast_apply _ h3 (ix2 n k) (ix3 n (grp128 k) (⟨k.val % 128, by omega⟩ : Fin 128)) ?_).trans ?_
  · rw [Shape.rowMajor_val_three, Shape.rowMajor_val_two]
    show (n.val * 32 + k.val / 128) * 128 + k.val % 128 = n.val * 4096 + k.val
    omega
  refine (broadcastTo_apply _ h2 _ (ix3 n (grp128 k) (0 : Fin 1)) ?_).trans ?_
  · intro a
    match a with
    | ⟨0, _⟩ =>
      show n.val = if N = 1 then 0 else n.val
      split_ifs with h
      · omega
      · rfl
    | ⟨1, _⟩ => show k.val / 128 = if (32 : Nat) = 1 then 0 else k.val / 128; rw [if_neg (by decide)]
    | ⟨2, _⟩ => show 0 = if (1 : Nat) = 1 then 0 else k.val % 128; rw [if_pos rfl]
  refine shapeCast_apply _ h1 _ (ix2 n (grp128 k)) ?_
  rw [Shape.rowMajor_val_two, Shape.rowMajor_val_three]
  show n.val * 32 + k.val / 128 = (n.val * 32 + k.val / 128) * 1 + 0
  omega

end Cert.GroupRepeat

end
-- ==== Proof.KernelBlock.lean ====
/-
  What one grid point of the kernel computes, entry by entry.

  At a point the body has a 256-row block of the quantised weight `q`, the same rows of the zero points `z` and of the
  scales `s`, and all of `x`. It converts `q` and `z` to reals, spreads `z` and `s` over the 128 columns of each of
  the 32 groups, forms `w = (q − z) · s`, transposes it and multiplies `x` by it into a zero accumulator. Changes of
  float format are the identity on the extended reals, the product with the transposed block is the product with the
  block's rows, and the spread table at column `k` is the table at group `k / 128`: so entry `(p, j)` of what the
  body stores is `∑ k, x (p, k) · w (j, k)`, the group-quantised layer on the block.
-/
import proofs.«153970_j25031069401195_1_alg».proof.Proof.Gen.KernelIdeal.Skeleton
import proofs.«153970_j25031069401195_1_alg».proof.Proof.LibGroupDequant
import proofs.«153970_j25031069401195_1_alg».proof.Proof.LibRowsDims
import proofs.«153970_j25031069401195_1_alg».proof.Proof.GroupRepeat

noncomputable section

namespace Cert.KernelIdeal.Block

open Cert.KernelIdeal Cert.KernelIdeal.Gen Idealize.ShloMosaic Idealize.ShloMosaic.ValueIdx
open Cert.DenseLayer (PlainDot plainDot_of_axes matmul_zero_apply prodRow)
open Cert.DenseRows (prodRowT prodRow_transposed)
open Cert.DenseLayer (Mat)
open Cert.GroupDequant (IMat dequant dequant_apply groupLinear groupLinear_apply groupLinear_congr)
open Cert.GroupRepeat (grp128 repeat_apply)

/-- The body's matrix product sums the left operand's columns against the right operand's rows. -/
theorem plain : PlainDot dot_S8x4096_S4096x256_S8x256_1_0_0_1_n_n :=
  plainDot_of_axes _ rfl rfl rfl rfl rfl rfl

/-- The value the body stores, at `(p, j)`: row `p` of `x` against row `j` of the dequantised block. -/
theorem payload_apply (q : Vec Ideal S256x4096 .i32) (z : Vec Ideal S256x32 .i32) (s : Vec Ideal S256x32 .f32)
    (x : Vec Ideal S8x4096 .f32) (p : Fin 8) (j : Fin 256) :
    k0_pay1 (F := Ideal) q z s x (ix2 p j) = prodRowT x (dequant grp128 q z s) p j := by
  unfold k0_pay1
  refine (matmul_zero_apply plain none _ _ (ix2 p j)).trans ?_
  refine prodRow_transposed _ _ (dequant grp128 q z s) (fun k n => ?_) p j
  refine (transpose_apply _ _ _ (ix2 k n) (ix2 n k) (fun b => ?_)).trans ?_
  · match b with
    | ⟨0, _⟩ => rfl
    | ⟨1, _⟩ => rfl
  rw [dequant_apply]
  show (FloatOps.sitofp (F := Ideal) .f32 (q (ix2 n k)) - _) * _ = _
  rw [repeat_apply, repeat_apply]
  rfl

/-- The same value as an entry of the layer on the WHOLE arrays. Let the body's blocks be: all of `X`; rows
    `256 b … 256 b + 255` of `Q`, of `Z` and of `S`. Then what the body stores at `y` is entry `i` of the whole
    layer, where `i` is `y` moved `b` blocks along the columns: the entry is decided by row `y 0` of `x` and by row
    `256 b + y 1` of the three weight tables. -/
theorem payload_eq_layer (q : Vec Ideal S256x4096 .i32) (z : Vec Ideal S256x32 .i32) (s : Vec Ideal S256x32 .f32)
    (x : Vec Ideal S8x4096 .f32) (X : Mat 8 4096) (Q : IMat 11008 4096) (Z : IMat 11008 32) (S : Mat 11008 32)
    (y : S8x256.Idx) (i : S8x11008.Idx) (b : ℕ)
    (hi0 : (i 0).val = (y 0).val) (hi1 : (i 1).val = b * 256 + (y 1).val)
    (hx : ∀ u : S8x4096.Idx, x u = X u)
    (hq : ∀ (u : S256x4096.Idx) (u' : S11008x4096.Idx), (u' 0).val = b * 256 + (u 0).val → (u' 1).val = (u 1).val → q u = Q u')
    (hz : ∀ (u : S256x32.Idx) (u' : S11008x32.Idx), (u' 0).val = b * 256 + (u 0).val → (u' 1).val = (u 1).val → z u = Z u')
    (hs : ∀ (u : S256x32.Idx) (u' : S11008x32.Idx), (u' 0).val = b * 256 + (u 0).val → (u' 1).val = (u 1).val → s u = S u') :
    k0_pay1 (F := Ideal) q z s x y = groupLinear grp128 X Q Z S i := by
  obtain ⟨p, j, rfl⟩ : ∃ (p : Fin 8) (j : Fin 256), y = ix2 p j := ⟨y 0, y 1, eq_ix2 y⟩
  obtain ⟨r, n, rfl⟩ : ∃ (r : Fin 8) (n : Fin 11008), i = ix2 r n := ⟨i 0, i 1, eq_ix2 i⟩
  have hr : r = p := Fin.ext hi0
  have hn : n.val = b * 256 + j.val := hi1
  subst hr
  rw [payload_apply, groupLinear_apply]
  exact groupLinear_congr grp128 x X q Q z Z s S r r j n (fun k => hx _)
    (fun k => hq _ _ hn rfl) (fun g => hz _ _ hn rfl) (fun g => hs _ _ hn rfl)

end Cert.KernelIdeal.Block

end
-- ==== Proof.KernelValue.lean ====
/-
  The kernel's result array is the group-quantised layer.

  The grid has 43 points. Point `t` reads all of `x` and rows `256 t … 256 t + 255` of the quantised weight, of the
  zero points and of the scales, and writes columns `256 t … 256 t + 255` of the `[8, 11008]` result. By the block
  lemma what it writes at `(p, j)` is entry `(p, 256 t + j)` of the layer on the whole arrays, so each written block
  is that block of ONE array, the layer; and since `11008 = 43 · 256` the 43 blocks cover every column (column `n`
  lies in the block of point `n / 256`). Hence the result array ends holding the layer.
-/
import proofs.«153970_j25031069401195_1_alg».proof.Proof.Gen.KernelIdeal.Value
import proofs.«153970_j25031069401195_1_alg».proof.Proof.KernelBlock

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open Cert.GroupDequant (groupLinear)
open Cert.GroupRepeat (grp128)

variable (m : (ℓ : Loc nD τ sig) → Buf (Elt Ideal) ℓ) (ρ : Dev nD → PrngReg)

theorem origin : (![0, 0] : Fin 2 → Nat) = fun _ => 0 := funext fun a => by fin_cases a <;> rfl

/-- The layer on the argument arrays as the region finds them. -/
abbrev layer (c : Dev nD) : S8x11008.Idx → Elt Ideal .f32 :=
  groupLinear grp128 (V m c main_arg0) (V m c main_arg1) (V m c main_arg2) (V m c main_arg3)

/-- The index maps over the grid: `x` stays at block `(0, 0)`; the three weight tables move along their rows as
    the result moves along its columns, at most to block 42. -/
theorem block_indices : ∀ t : Fin cfg0.N,
    win0_0.index t (0 : Fin 2) = 0 ∧ win0_0.index t (1 : Fin 2) = 0
    ∧ win0_1.index t (0 : Fin 2) = win0_4.index t (1 : Fin 2) ∧ win0_1.index t (1 : Fin 2) = 0
    ∧ win0_2.index t (0 : Fin 2) = win0_4.index t (1 : Fin 2) ∧ win0_2.index t (1 : Fin 2) = 0
    ∧ win0_3.index t (0 : Fin 2) = win0_4.index t (1 : Fin 2) ∧ win0_3.index t (1 : Fin 2) = 0
    ∧ win0_4.index t (0 : Fin 2) = 0 ∧ win0_4.index t (1 : Fin 2) ≤ 42 :=
  (by decide +kernel : ∀ t : Fin grid0.N, _)

/-- Every one of the 43 column blocks is some point's. -/
theorem block_onto : ∀ b : Fin 43, ∃ t : Fin cfg0.N, win0_4.index t = ![0, b.val] :=
  (by decide +kernel : ∀ b : Fin 43, ∃ t : Fin grid0.N, win0_4.index t = ![0, b.val])

/-- What point `t` writes back is block `t` of the layer. -/
theorem flushed_eq (c : Dev nD) (t : Fin cfg0.N) :
    (dats m 0 c).flushed 4 t = ((cfg0.win 4).blk t).view.read (Elt Ideal) (layer m c) := by
  rw [Cert.KernelIdeal.Value.flushed4]
  unfold out0_4
  rw [View.canon_unit_zero origin]
  simp only [View.ld_unit_zero (S := S256x4096) origin, View.ld_unit_zero (S := S256x32) origin,
    View.ld_unit_zero (S := S8x4096) origin]
  obtain ⟨e00, e01, e10, e11, e20, e21, e30, e31, e40, e41⟩ := block_indices t
  funext y
  show k0_pay1 (F := Ideal) (iblk m c 1 t) (iblk m c 2 t) (iblk m c 3 t) (iblk m c 0 t) y
    = layer m c (((cfg0.win 4).blk t).view.emb y)
  refine Cert.KernelIdeal.Block.payload_eq_layer (iblk m c 1 t) (iblk m c 2 t) (iblk m c 3 t) (iblk m c 0 t)
    (V m c main_arg0) (V m c main_arg1) (V m c main_arg2) (V m c main_arg3) y (((cfg0.win 4).blk t).view.emb y)
    (win0_4.index t (1 : Fin 2)) ?_ ?_ ?_ ?_ ?_ ?_
  · show win0_4.index t (0 : Fin 2) * 8 + 1 * (y 0).val = (y 0).val
    omega
  · show win0_4.index t (1 : Fin 2) * 256 + 1 * (y 1).val = win0_4.index t (1 : Fin 2) * 256 + (y 1).val
    omega
  · intro u
    show V m c main_arg0 (((cfg0.win 0).blk t).view.emb u) = V m c main_arg0 u
    refine congrArg (V m c main_arg0) (funext fun a => Fin.ext ?_)
    match a with
    | ⟨0, _⟩ => show win0_0.index t (0 : Fin 2) * 8 + 1 * (u 0).val = (u 0).val; omega
    | ⟨1, _⟩ => show win0_0.index t (1 : Fin 2) * 4096 + 1 * (u 1).val = (u 1).val; omega
  · intro u u' h0 h1
    show V m c main_arg1 (((cfg0.win 1).blk t).view.emb u) = V m c main_arg1 u'
    refine congrArg (V m c main_arg1) (funext fun a => Fin.ext ?_)
    match a with
    | ⟨0, _⟩ => show win0_1.index t (0 : Fin 2) * 256 + 1 * (u 0).val = (u' 0).val; omega
    | ⟨1, _⟩ => show win0_1.index t (1 : Fin 2) * 4096 + 1 * (u 1).val = (u' 1).val; omega
  · intro u u' h0 h1
    show V m c main_arg2 (((cfg0.win 2).blk t).view.emb u) = V m c main_arg2 u'
    refine congrArg (V m c main_arg2) (funext fun a => Fin.ext ?_)
    match a with
    | ⟨0, _⟩ => show win0_2.index t (0 : Fin 2) * 256 + 1 * (u 0).val = (u' 0).val; omega
    | ⟨1, _⟩ => show win0_2.index t (1 : Fin 2) * 32 + 1 * (u 1).val = (u' 1).val; omega
  · intro u u' h0 h1
    show V m c main_arg3 (((cfg0.win 3).blk t).view.emb u) = V m c main_arg3 u'
    refine congrArg (V m c main_arg3) (funext fun a => Fin.ext ?_)
    match a with
    | ⟨0, _⟩ => show win0_3.index t (0 : Fin 2) * 256 + 1 * (u 0).val = (u' 0).val; omega
    | ⟨1, _⟩ => show win0_3.index t (1 : Fin 2) * 32 + 1 * (u 1).val = (u' 1).val; omega

/-- An index of the result lies in point `t`'s block iff each coordinate lies in the block's range on its axis. -/
theorem mem_block (t : Fin cfg0.N) (i : S8x11008.Idx) :
    i ∈ ((cfg0.win 4).blk t).view.set ↔ ∀ a : Fin 2, win0_4.index t a * S8x256.size a ≤ (i a).val ∧ (i a).val < win0_4.index t a * S8x256.size a + S8x256.size a := by
  show i ∈ ((View.whole main_v0).slice (win0_4.rect t)).set ↔ _
  rw [View.set_slice_whole, Rect.mem_set_unit]
  exact Iff.rfl

/-- Every index of the result lies in the block of the point that owns its column block. -/
theorem covered (i : S8x11008.Idx) :
    ∃ t : Fin cfg0.N, (cfg0.win 4).flush t = true ∧ i ∈ ((cfg0.win 4).blk t).view.set := by
  have hi0 : (i 0).val < 8 := (i 0).isLt
  have hi1 : (i 1).val < 11008 := (i 1).isLt
  obtain ⟨t, ht⟩ := block_onto ⟨(i 1).val / 256, by omega⟩
  have q0 : win0_4.index t (0 : Fin 2) = 0 := congrFun ht 0
  have q1 : win0_4.index t (1 : Fin 2) = (i 1).val / 256 := congrFun ht 1
  refine ⟨t, flush0_4 t, ?_⟩
  rw [mem_block]
  intro a
  match a with
  | ⟨0, _⟩ => show win0_4.index t (0 : Fin 2) * 8 ≤ (i 0).val ∧ (i 0).val < win0_4.index t (0 : Fin 2) * 8 + 8; omega
  | ⟨1, _⟩ => show win0_4.index t (1 : Fin 2) * 256 ≤ (i 1).val ∧ (i 1).val < win0_4.index t (1 : Fin 2) * 256 + 256; omega

/-- The result array after the run is the layer. -/
theorem final (c : Dev nD) : (dats m 0 c).arrAt 4 cfg0.N = layer m c :=
  (dats m 0 c).arrAt_eq_of_cover 4 (layer m c) (fun t _ => flushed_eq m c t) covered

/-- The kernel's run: the result array at the layer of the arguments, the arguments unchanged. -/
theorem run : θ_run defs (onTc (τ := τ) (main (F := Ideal))) ⟨m, fun _ => 0, ρ⟩ fun r => ∀ c : Dev nD,
      r.2.mem ((c : Thread nD τ).loc main_v0) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.Whole

end
-- ==== Proof.RefValue.lean ====
/-
  The reference's result is the group-quantised layer.

  The reference views the weight `[11008, 4096]` as `[11008, 32, 128]`, converts it to reals, subtracts the zero
  points and multiplies by the scales, both broadcast along the last axis, flattens back to `[11008, 4096]` and
  contracts the second axis of `x` against the second axis of the result. Position `(n, g, l)` of the three-axis view is
  column `128 g + l` of row `n`, so the flattened weight at `(n, k)` is `(q (n, k) − z (n, k / 128)) · s (n, k / 128)`,
  and the contraction at `(r, n)` is the sum over `k` of `x (r, k)` times that.
-/
import proofs.«153970_j25031069401195_1_alg».proof.Proof.Gen.ReferenceIdeal.Read
import proofs.«153970_j25031069401195_1_alg».proof.Proof.LibGroupDequant
import proofs.«153970_j25031069401195_1_alg».proof.Proof.GroupRepeat

noncomputable section

namespace Cert.ReferenceIdeal.RefValue

open Cert.ReferenceIdeal Cert.ReferenceIdeal.Gen Cert.ReferenceIdeal.Read Idealize.ShloMosaic Idealize.ShloMosaic.ValueIdx
open Cert.DenseLayer (Mat)
open Cert.DenseRows (prodRowT)
open Cert.GroupDequant (IMat dequant dequant_apply groupLinear groupLinear_apply)
open Cert.GroupRepeat (grp128)

/-- The flattened weight at `(n, k)`: the stored integer minus its group's zero point, times its group's scale. -/
theorem weight_apply (q : IMat 11008 4096) (z : IMat 11008 32) (s : Mat 11008 32) (n : Fin 11008) (k : Fin 4096) :
    val_main_v9 (F := Ideal) q z s (ix2 n k) = dequant grp128 q z s (ix2 n k) := by
  have hk : k.val < 4096 := k.isLt
  have hn : n.val < 11008 := n.isLt
  have e0 : idx_main_v0 (idx_main_v9 (ix2 n k)) = ix2 n k := funext fun a => Fin.ext (by
    match a with
    | ⟨0, _⟩ =>
      show (((n.val * 4096 + k.val) / 4096 * 32 + (n.val * 4096 + k.val) / 128 % 32) * 128 + (n.val * 4096 + k.val) % 128) / 4096 = n.val
      omega
    | ⟨1, _⟩ =>
      show (((n.val * 4096 + k.val) / 4096 * 32 + (n.val * 4096 + k.val) / 128 % 32) * 128 + (n.val * 4096 + k.val) % 128) % 4096 = k.val
      omega)
  have e2 : idx_main_v2 (idx_main_v4 (idx_main_v9 (ix2 n k))) = ix2 n (grp128 k) := funext fun a => Fin.ext (by
    match a with
    | ⟨0, _⟩ => show (n.val * 4096 + k.val) / 4096 = n.val; omega
    | ⟨1, _⟩ => show (n.val * 4096 + k.val) / 128 % 32 = k.val / 128; omega)
  have e6 : idx_main_v6 (idx_main_v7 (idx_main_v9 (ix2 n k))) = ix2 n (grp128 k) := funext fun a => Fin.ext (by
    match a with
    | ⟨0, _⟩ => show (n.val * 4096 + k.val) / 4096 = n.val; omega
    | ⟨1, _⟩ => show (n.val * 4096 + k.val) / 128 % 32 = k.val / 128; omega)
  rw [val_main_v9_apply, val_main_v8_apply, val_main_v5_apply, val_main_v1_apply, val_main_v0_apply,
    val_main_v4_apply, val_main_v3_apply, val_main_v2_apply, val_main_v7_apply, val_main_v6_apply, e0, e2, e6,
    dequant_apply]
  rfl

/-- The reference's result, as a function of its four arguments, is the layer. -/
theorem result_eq (x : Mat 8 4096) (q : IMat 11008 4096) (z : IMat 11008 32) (s : Mat 11008 32) :
    val_main_v10 (F := Ideal) x q z s = groupLinear grp128 x q z s := by
  funext i
  obtain ⟨r, n, rfl⟩ : ∃ (r : Fin 8) (n : Fin 11008), i = ix2 r n := ⟨i 0, i 1, eq_ix2 i⟩
  rw [val_main_v10_apply, groupLinear_apply]
  unfold prodRowT
  refine Finset.sum_congr rfl fun k _ => ?_
  have el : lidx_main_v10 (ix2 r n) k = ix2 r k := funext fun a => Fin.ext (by
    match a with
    | ⟨0, _⟩ => rfl
    | ⟨1, _⟩ => rfl)
  have er : ridx_main_v10 (ix2 r n) k = ix2 n k := funext fun a => Fin.ext (by
    match a with
    | ⟨0, _⟩ => rfl
    | ⟨1, _⟩ => rfl)
  rw [el, er, weight_apply]

end Cert.ReferenceIdeal.RefValue

end
-- ==== Proof.lean ====
/- A linear layer with a group-quantised weight: the kernel against its reference, over the extended reals.

   Both programs compute, for `x : [8, 4096]`, an integer weight `q : [11008, 4096]`, integer zero points
   `z : [11008, 32]` and scales `s : [11008, 32]`,

       y (r, n) = ∑ k, x (r, k) · ((q (n, k) − z (n, k / 128)) · s (n, k / 128)),

   the integers read as reals: each group of 128 consecutive columns of a weight row shares a zero point and a scale.
   The kernel does it 256 weight rows at a time — it spreads the two tables over the columns, dequantises, transposes
   the block and multiplies `x` by it into a zero accumulator (its changes of float format are the identity on the
   extended reals) — and the 43 blocks of 256 result columns cover the result. The reference views the weight as
   `[11008, 32, 128]`, dequantises with the tables broadcast along the last axis, flattens and contracts the second
   axes. Read entry by entry both are the same sum of the same products, so no law of arithmetic is needed and the
   finiteness of the inputs is never used. The kernel and its idealization are the same text (the ledger is empty). -/
import proofs.«153970_j25031069401195_1_alg».proof.Defs
import proofs.«153970_j25031069401195_1_alg».proof.Proof.Gen.Kernel
import proofs.«153970_j25031069401195_1_alg».proof.Proof.Gen.Kernel.Skeleton
import proofs.«153970_j25031069401195_1_alg».proof.Proof.Gen.Kernel.Launch
import proofs.«153970_j25031069401195_1_alg».proof.Proof.Gen.Kernel.Points
import proofs.«153970_j25031069401195_1_alg».proof.Proof.Gen.Kernel.Frame
import proofs.«153970_j25031069401195_1_alg».proof.Proof.Gen.KernelIdeal
import proofs.«153970_j25031069401195_1_alg».proof.Proof.Gen.KernelIdeal.Skeleton
import proofs.«153970_j25031069401195_1_alg».proof.Proof.Gen.KernelIdeal.Launch
import proofs.«153970_j25031069401195_1_alg».proof.Proof.Gen.KernelIdeal.Points
import proofs.«153970_j25031069401195_1_alg».proof.Proof.Gen.KernelIdeal.Frame
import proofs.«153970_j25031069401195_1_alg».proof.Proof.Gen.ReferenceIdeal
import proofs.«153970_j25031069401195_1_alg».proof.Proof.Gen.Pre_finite_inputs
import proofs.«153970_j25031069401195_1_alg».proof.Proof.Gen.KernelIdeal.Value
import proofs.«153970_j25031069401195_1_alg».proof.Proof.Gen.ReferenceIdeal.Run
import proofs.«153970_j25031069401195_1_alg».proof.Proof.Gen.ReferenceIdeal.Read
import proofs.«153970_j25031069401195_1_alg».proof.Proof.KernelValue
import proofs.«153970_j25031069401195_1_alg».proof.Proof.RefValue
import Idealize.ShloMosaic.Adequacy
import Idealize.ShloMosaic.Init

noncomputable section

namespace Cert.Proof

open Idealize.ShloMosaic Idealize.SL.Sem Cert.Kernel

/-- The kernel as printed runs and leaves its arguments unchanged. -/
theorem frame_kernel : Cert.frame_Kernel := fun m ρ _ => Cert.Kernel.Gen.frame m ρ

/-- So does the kernel read over the extended reals. -/
theorem frame_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the four arguments both programs end with the layer of those arguments in their result
    array: the kernel block by block, the reference by reading its operations at an index. -/
theorem algebraic : Cert.algebraic_KernelIdeal_ReferenceIdeal := by
  intro m ρ m' ρ' _ hagree
  refine ⟨fun c => Cert.KernelIdeal.Whole.layer m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
